-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S200000 : Shape := ⟨1, ![200000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S1x768 : S_.BroadcastsInDim S1x768 (![] : Fin 0 → Fin S1x768.rank)
  reducesTo_S1x768_S_d0_1 : S1x768.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S768x256 .f32) (main_arg5 : FVec F S1x768 .f32) (main_arg6 : FVec F S256x256 .f32) (main_arg7 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S1x768 .f32 := Host.absf main_arg5
  let main_cst_8 : FVec F S_ .f32 := constant S_ .f32 0x7F800000#32
  let main_v25 : FVec F S1x768 .f32 := broadcastInDim S1x768 ![] bcast_S_S1x768 main_cst_8
  let main_v26 : IVec S1x768 1 := cmpf .olt main_v24 main_v25
  let main_c_9 : IVec S_ 1 := constantI S_ 1 1#1
  let main_v27 : IVec S_ 1 := (fun x v => Host.reduce IntOp.andi x v reducesTo_S1x768_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S200000x256 .f32) (main_arg1 : FVec F S200000x256 .f32) (main_arg2 : FVec F S200000x256 .f32) (main_arg3 : FVec F S768x256 .f32) (main_arg4 : FVec F S768x256 .f32) (main_arg5 : FVec F S1x768 .f32) (main_arg6 : FVec F S256x256 .f32) (main_arg7 : FVec F S256 .f32) (main_arg8 : IVec S200000 32) (main_arg9 : IVec S200000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_v13 main_v16
-- ==== Kernel.lean ====
abbrev S200000x256 : Shape := ⟨2, ![200000, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S200000 : Shape := ⟨1, ![200000]⟩
abbrev S_ : Shape := ⟨0, ![]⟩
abbrev S200000x1 : Shape := ⟨2, ![200000, 1]⟩
abbrev S1x256 : Shape := ⟨2, ![1, 256]⟩
abbrev S256x768 : Shape := ⟨2, ![256, 768]⟩
abbrev S1000x256 : Shape := ⟨2, ![1000, 256]⟩
abbrev S1000x768 : Shape := ⟨2, ![1000, 768]⟩

abbrev nBuf : Space → Nat
  | .hbm => 43
  | .vmem => 21
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S768x256, .f32⟩
  | .hbm, ⟨4, _⟩ => ⟨S768x256, .f32⟩
  | .hbm, ⟨5, _⟩ => ⟨S1x768, .f32⟩
  | .hbm, ⟨6, _⟩ => ⟨S256x256, .f32⟩
  | .hbm, ⟨7, _⟩ => ⟨S256, .f32⟩
  | .hbm, ⟨8, _⟩ => ⟨S200000, .i32⟩
  | .hbm, ⟨9, _⟩ => ⟨S200000, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000x256, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x256, .f32⟩
  | .hbm, ⟨28, _⟩ => ⟨S256x256, .f32⟩
  | .hbm, ⟨29, _⟩ => ⟨S1x256, .f32⟩
  | .hbm, ⟨30, _⟩ => ⟨S256x768, .f32⟩
  | .hbm, ⟨31, _⟩ => ⟨S256x768, .f32⟩
  | .hbm, ⟨32, _⟩ => ⟨S200000x256, .f32⟩
  | .hbm, ⟨33, _⟩ => ⟨S_, .f32⟩
  | .hbm, ⟨34, _⟩ => ⟨S200000x256, .f32⟩
  | .hbm, ⟨35, _⟩ => ⟨S200000x1, .i32⟩
  | .hbm, ⟨36, _⟩ => ⟨S200000x256, .f32⟩
  | .hbm, ⟨37, _⟩ => ⟨S_, .f32⟩
  | .hbm, ⟨38, _⟩ => ⟨S200000x256, .f32⟩
  | .hbm, ⟨39, _⟩ => ⟨S200000x1, .i32⟩
  | .hbm, ⟨40, _⟩ => ⟨S200000x256, .f32⟩
  | .hbm, ⟨41, _⟩ => ⟨S200000x256, .f32⟩
  | .hbm, ⟨42, _⟩ => ⟨S200000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S256x768, .f32⟩
  | .local _ .vmem, ⟨15, _⟩ => ⟨S256x768, .f32⟩
  | .local _ .vmem, ⟨16, _⟩ => ⟨S1x768, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  transposes_S256x256_S256x256_1_0 : S256x256.Transposes [1, 0] S256x256
  shapeCasts_S256_S1x256 : S256.ShapeCasts S1x256
  transposes_S768x256_S256x768_1_0 : S768x256.Transposes [1, 0] S256x768
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S_S200000x256 : S_.BroadcastsInDim S200000x256 (![] : Fin 0 → Fin S200000x256.rank)
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  gather_S200000x256_S200000x1_S200000x256_1_0_n_n_0_1_1256_wf : GatherDims.WF S200000x256 S200000x1 S200000x256 [1] [0] [] [0] [] 1 ![1, 256]
  dot_S1000x256_S256x256_S1000x256_1_0_0_1_n_n_wf : DotDims.WF S1000x256 S256x256 S1000x256 [1] [0] [0] [1] [] []
  scatter_S200000x256_S200000x1_S200000x256_1_0_0_1_wf : ScatterDims.WF S200000x256 S200000x1 S200000x256 [1] [0] [0] 1
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S200000x256.size a
  hwx0_0 : ∀ i : grid0.Coords, EltTy.bits .f32 = 32 ∨ (Rect.block (s := S200000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S200000x256.size a
  hwx0_1 : ∀ i : grid0.Coords, EltTy.bits .f32 = 32 ∨ (Rect.block (s := S200000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S200000x256.size a
  hwx0_4 : ∀ i : grid0.Coords, EltTy.bits .f32 = 32 ∨ (Rect.block (s := S200000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S200000x256.size a
  hwx1_0 : ∀ i : grid1.Coords, EltTy.bits .f32 = 32 ∨ (Rect.block (s := S200000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S200000x256.size a
  hwx1_1 : ∀ i : grid1.Coords, EltTy.bits .f32 = 32 ∨ (Rect.block (s := S200000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S200000x256.size a
  hwx1_2 : ∀ i : grid1.Coords, EltTy.bits .f32 = 32 ∨ (Rect.block (s := S200000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x768.size a ≤ S256x768.size a
  hwx1_4 : ∀ i : grid1.Coords, EltTy.bits .f32 = 32 ∨ (Rect.block (s := S256x768) S256x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S200000x256.size a
  hwx1_6 : ∀ i : grid1.Coords, EltTy.bits .f32 = 32 ∨ (Rect.block (s := S200000x256) S1000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S200000x256.size a
  hwx1_7 : ∀ i : grid1.Coords, EltTy.bits .f32 = 32 ∨ (Rect.block (s := S200000x256) S1000x256.size (cc1_transform_7 i) (hinb1_7 i)).WholeWords (EltTy.packing .f32)

variable [Facts₀]

def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def scatter_S200000x256_S200000x1_S200000x256_1_0_0_1 : ScatterDims S200000x256 S200000x1 S200000x256 where
  updateWindowDims := [1]
  insertedWindowDims := [0]
  scatterDimsToOperandDims := [0]
  indexVectorDim := 1
  wf := scatter_S200000x256_S200000x1_S200000x256_1_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_v6) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S256x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25_0) S1000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v25_1) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x256 : Shape := ⟨2, ![200000, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S200000 : Shape := ⟨1, ![200000]⟩
abbrev S_ : Shape := ⟨0, ![]⟩
abbrev S200000x1 : Shape := ⟨2, ![200000, 1]⟩
abbrev S1x256 : Shape := ⟨2, ![1, 256]⟩
abbrev S256x768 : Shape := ⟨2, ![256, 768]⟩
abbrev S200000x768 : Shape := ⟨2, ![200000, 768]⟩

abbrev nBuf : Space → Nat
  | .hbm => 81
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x256, .f32⟩
  | .hbm, ⟨3, _⟩ => ⟨S768x256, .f32⟩
  | .hbm, ⟨4, _⟩ => ⟨S768x256, .f32⟩
  | .hbm, ⟨5, _⟩ => ⟨S1x768, .f32⟩
  | .hbm, ⟨6, _⟩ => ⟨S256x256, .f32⟩
  | .hbm, ⟨7, _⟩ => ⟨S256, .f32⟩
  | .hbm, ⟨8, _⟩ => ⟨S200000, .i32⟩
  | .hbm, ⟨9, _⟩ => ⟨S200000, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000x256, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x256, .f32⟩
  | .hbm, ⟨28, _⟩ => ⟨S256x256, .f32⟩
  | .hbm, ⟨29, _⟩ => ⟨S200000x256, .f32⟩
  | .hbm, ⟨30, _⟩ => ⟨S1x256, .f32⟩
  | .hbm, ⟨31, _⟩ => ⟨S200000x256, .f32⟩
  | .hbm, ⟨32, _⟩ => ⟨S200000x256, .f32⟩
  | .hbm, ⟨33, _⟩ => ⟨S200000x256, .f32⟩
  | .hbm, ⟨34, _⟩ => ⟨S200000x256, .f32⟩
  | .hbm, ⟨35, _⟩ => ⟨S_, .f32⟩
  | .hbm, ⟨36, _⟩ => ⟨S200000x256, .f32⟩
  | .hbm, ⟨37, _⟩ => ⟨S200000x256, .f32⟩
  | .hbm, ⟨38, _⟩ => ⟨S_, .f32⟩
  | .hbm, ⟨39, _⟩ => ⟨S200000x256, .f32⟩
  | .hbm, ⟨40, _⟩ => ⟨S200000x256, .f32⟩
  | .hbm, ⟨41, _⟩ => ⟨S_, .f32⟩
  | .hbm, ⟨42, _⟩ => ⟨S200000x256, .f32⟩
  | .hbm, ⟨43, _⟩ => ⟨S200000x1, .i32⟩
  | .hbm, ⟨44, _⟩ => ⟨S200000x256, .f32⟩
  | .hbm, ⟨45, _⟩ => ⟨S200000x256, .f32⟩
  | .hbm, ⟨46, _⟩ => ⟨S_, .f32⟩
  | .hbm, ⟨47, _⟩ => ⟨S200000x256, .f32⟩
  | .hbm, ⟨48, _⟩ => ⟨S200000x1, .i32⟩
  | .hbm, ⟨49, _⟩ => ⟨S200000x256, .f32⟩
  | .hbm, ⟨50, _⟩ => ⟨S256x768, .f32⟩
  | .hbm, ⟨51, _⟩ => ⟨S200000x768, .f32⟩
  | .hbm, ⟨52, _⟩ => ⟨S256x768, .f32⟩
  | .hbm, ⟨53, _⟩ => ⟨S200000x768, .f32⟩
  | .hbm, ⟨54, _⟩ => ⟨S200000x768, .f32⟩
  | .hbm, ⟨55, _⟩ => ⟨S200000x768, .f32⟩
  | .hbm, ⟨56, _⟩ => ⟨S200000x768, .f32⟩
  | .hbm, ⟨57, _⟩ => ⟨S200000x256, .f32⟩
  | .hbm, ⟨58, _⟩ => ⟨S200000x256, .f32⟩
  | .hbm, ⟨59, _⟩ => ⟨S200000x256, .f32⟩
  | .hbm, ⟨60, _⟩ => ⟨S200000x256, .f32⟩
  | .hbm, ⟨61, _⟩ => ⟨S200000x256, .f32⟩
  | .hbm, ⟨62, _⟩ => ⟨S_, .f32⟩
  | .hbm, ⟨63, _⟩ => ⟨S200000x256, .f32⟩
  | .hbm, ⟨64, _⟩ => ⟨S200000x256, .f32⟩
  | .hbm, ⟨65, _⟩ => ⟨S_, .f32⟩
  | .hbm, ⟨66, _⟩ => ⟨S200000x256, .f32⟩
  | .hbm, ⟨67, _⟩ => ⟨S200000x256, .f32⟩
  | .hbm, ⟨68, _⟩ => ⟨S200000x256, .f32⟩
  | .hbm, ⟨69, _⟩ => ⟨S200000x256, .f32⟩
  | .hbm, ⟨70, _⟩ => ⟨S_, .f32⟩
  | .hbm, ⟨71, _⟩ => ⟨S200000x256, .f32⟩
  | .hbm, ⟨72, _⟩ => ⟨S200000x256, .f32⟩
  | .hbm, ⟨73, _⟩ => ⟨S_, .f32⟩
  | .hbm, ⟨74, _⟩ => ⟨S200000x256, .f32⟩
  | .hbm, ⟨75, _⟩ => ⟨S200000x256, .f32⟩
  | .hbm, ⟨76, _⟩ => ⟨S200000x256, .f32⟩
  | .hbm, ⟨77, _⟩ => ⟨S200000x256, .f32⟩
  | .hbm, ⟨78, _⟩ => ⟨S200000x256, .f32⟩
  | .hbm, ⟨79, _⟩ => ⟨S200000x256, .f32⟩
  | .hbm, ⟨80, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  transposes_S256x256_S256x256_1_0 : S256x256.Transposes [1, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  transposes_S768x256_S256x768_1_0 : S768x256.Transposes [1, 0] S256x768
  bcast_S1x768_S200000x768_0_1 : S1x768.BroadcastsInDim S200000x768 (![0, 1] : Fin 2 → Fin S200000x768.rank)
  slices_S200000x768_S200000x256_0_0 : S200000x768.Slices ![0, 0] S200000x256
  slices_S200000x768_S200000x256_0_256 : S200000x768.Slices ![0, 256] S200000x256
  slices_S200000x768_S200000x256_0_512 : S200000x768.Slices ![0, 512] S200000x256
  gather_S200000x256_S200000x1_S200000x256_1_0_n_n_0_1_1256_wf : GatherDims.WF S200000x256 S200000x1 S200000x256 [1] [0] [] [0] [] 1 ![1, 256]
  dot_S200000x256_S256x256_S200000x256_1_0_0_1_n_n_wf : DotDims.WF S200000x256 S256x256 S200000x256 [1] [0] [0] [1] [] []
  scatter_S200000x256_S200000x1_S200000x256_1_0_0_1_wf : ScatterDims.WF S200000x256 S200000x1 S200000x256 [1] [0] [0] 1
  dot_S200000x256_S256x768_S200000x768_1_0_0_1_n_n_wf : DotDims.WF S200000x256 S256x768 S200000x768 [1] [0] [0] [1] [] []

variable [Facts₀]

def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S200000x256_S200000x1_S200000x256_1_0_0_1 : ScatterDims S200000x256 S200000x1 S200000x256 where
  updateWindowDims := [1]
  insertedWindowDims := [0]
  scatterDimsToOperandDims := [0]
  indexVectorDim := 1
  wf := scatter_S200000x256_S200000x1_S200000x256_1_0_0_1_wf
def dot_S200000x256_S256x768_S200000x768_1_0_0_1_n_n : DotDims S200000x256 S256x768 S200000x768 where
  lhsContracting := [1]
  rhsContracting := [0]
  lhsNonContracting := [0]
  rhsNonContracting := [1]
  lhsBatch := []
  rhsBatch := []
  wf := dot_S200000x256_S256x768_S200000x768_1_0_0_1_n_n_wf

class Facts : Prop extends Facts₀ where

variable [Facts]
-- ==== Proof.CellSpec.lean ====
/-
  The ChildSum tree-LSTM cell as one function of whole arrays, index by index, on the extended reals.

  Edges and nodes are both 200000 rows of width 256. For an edge row `e` and a column `q`
    gated e q  = σ( Σ_k hc[e,k] · uT[k,q] + b[0,q] ) · cc[e,q]          (σ x = 1 / (1 + e^(-x)))
  is the child's forget gate times the child's cell; for a node row `r` and a column `j < 768`
    iou r j    = ( Σ_k x[r,k] · wT[k,j] + Σ_k ht[r,k] · uT[k,j] ) + b[0,j]
  and the new cell and hidden states are
    cellNew r q = σ(iou r q) · tanh(iou r (q + 512)) + ca[r,q]
    hidNew  r q = σ(iou r (q + 256)) · tanh(cellNew r q).
  The sums are plain finite sums of extended reals: no order, no tiling, no rounding is left in them.
-/
import Idealize.ShloMosaic.PureOps.Ideal
import Idealize.ShloMosaic.Lib.ValueIdx

noncomputable section

namespace Cert.TreeCell

open Idealize.ShloMosaic Idealize.ShloMosaic.ValueIdx
open scoped BigOperators

/-- rows × hidden width: the per-edge and the per-node arrays -/
abbrev SRows : Shape := ⟨2, ![200000, 256]⟩
/-- the forget gate's weight, already transposed: contraction index first -/
abbrev SGateW : Shape := ⟨2, ![256, 256]⟩
/-- the forget gate's bias as a one-row matrix -/
abbrev SGateB : Shape := ⟨2, ![1, 256]⟩
/-- an input/output/update weight, already transposed: contraction index first, the three gates side by side -/
abbrev SIouW : Shape := ⟨2, ![256, 768]⟩
/-- the input/output/update bias as a one-row matrix -/
abbrev SIouB : Shape := ⟨2, ![1, 768]⟩

/-- The row coordinate of an index of a rows × 256 array, as a number below 200000. -/
abbrev rowOf (i : SRows.Idx) : Fin 200000 := ⟨(i 0).val, (i 0).isLt⟩
/-- The column coordinate, as a number below 256. -/
abbrev colOf (i : SRows.Idx) : Fin 256 := ⟨(i 1).val, (i 1).isLt⟩

/-- The forget gate's pre-activation at edge `e`, column `q`: the child's hidden row against column `q` of the
    transposed weight, plus the bias. Stated for any number of rows `n`, so that it reads a block of rows as it reads
    the whole array. -/
def gatePre {n : Nat} (hc : FVec Ideal ⟨2, ![n, 256]⟩ .f32) (uT : FVec Ideal SGateW .f32) (b : FVec Ideal SGateB .f32)
    (e : Fin n) (q : Fin 256) : EReal :=
  (∑ k : Fin 256, hc (ix2 e k) * uT (ix2 k q)) + b (ix2 (0 : Fin 1) q)

/-- Forget gate times child cell, per edge and column. -/
def gated (hc cc : FVec Ideal SRows .f32) (uT : FVec Ideal SGateW .f32) (b : FVec Ideal SGateB .f32) :
    FVec Ideal SRows .f32 :=
  fun i => Ideal.logistic (gatePre hc uT b (rowOf i) (colOf i)) * cc i

/-- The three gates' joint pre-activation at node `r`, column `j` of 768: the node's input row and its summed
    children's hidden row, each against column `j` of its transposed weight, then the bias. For any number of rows. -/
def iou {n : Nat} (x ht : FVec Ideal ⟨2, ![n, 256]⟩ .f32) (wT uT : FVec Ideal SIouW .f32) (b : FVec Ideal SIouB .f32)
    (r : Fin n) (j : Fin 768) : EReal :=
  ((∑ k : Fin 256, x (ix2 r k) * wT (ix2 k j)) + (∑ k : Fin 256, ht (ix2 r k) * uT (ix2 k j))) + b (ix2 (0 : Fin 1) j)

/-- Column `q` of the input gate's third of the 768 columns. -/
abbrev colI (q : Fin 256) : Fin 768 := ⟨q.val, by omega⟩
/-- Column `q` of the output gate's third. -/
abbrev colO (q : Fin 256) : Fin 768 := ⟨q.val + 256, by omega⟩
/-- Column `q` of the update's third. -/
abbrev colU (q : Fin 256) : Fin 768 := ⟨q.val + 512, by omega⟩

/-- The node's new cell state: input gate times update, plus the children's gated cells summed. -/
def cellNew (x ht ca : FVec Ideal SRows .f32) (wT uT : FVec Ideal SIouW .f32) (b : FVec Ideal SIouB .f32) :
    FVec Ideal SRows .f32 :=
  fun i => Ideal.logistic (iou x ht wT uT b (rowOf i) (colI (colOf i))) * Ideal.tanh (iou x ht wT uT b (rowOf i) (colU (colOf i))) + ca i

/-- The node's new hidden state: output gate times tanh of the new cell state. -/
def hidNew (x ht ca : FVec Ideal SRows .f32) (wT uT : FVec Ideal SIouW .f32) (b : FVec Ideal SIouB .f32) :
    FVec Ideal SRows .f32 :=
  fun i => Ideal.logistic (iou x ht wT uT b (rowOf i) (colO (colOf i))) * Ideal.tanh (cellNew x ht ca wT uT b i)

end Cert.TreeCell

end
-- ==== Proof.BodyPay.lean ====
/-
  The two kernel bodies' arithmetic read at one element.

  Each body's stored value is one pure term of the blocks the body loads (the generated payloads). At the extended reals
  a change of float format is the identity, a matrix product into a zero accumulator is the plain sum over the contracted
  index, a broadcast of a one-row bias reads its row 0, and a slice of the 768 columns reads the column shifted by the
  slice's offset. So at row `p` of the block and column `q`:
    the forget-gate body stores   σ(gatePre p q) · (child cell)[p,q],
    the node body's 768-wide sum  is `iou p j`,
    it stores as the new cell     σ(iou p q) · tanh(iou p (q+512)) + (summed gated cells)[p,q],
    and as the new hidden state   σ(iou p (q+256)) · tanh(new cell [p,q]).
-/
import proofs.«139482_j9380208575287_1_alg».proof.Proof.Gen.KernelIdeal.Skeleton
import proofs.«139482_j9380208575287_1_alg».proof.Proof.CellSpec
import Idealize.ShloMosaic.Lib.ValueIdx
import Idealize.ShloMosaic.Lib.Pipeline.Value
import Idealize.ShloMosaic.PureOps.Ideal.Laws

noncomputable section

namespace Cert.KernelIdeal.BodyPay

open Cert.KernelIdeal Cert.KernelIdeal.Gen Cert.TreeCell Idealize.ShloMosaic Idealize.ShloMosaic.ValueIdx
open scoped BigOperators

/-! ## The forget-gate body -/

/-- The forget gate's product: output axis 0 reads the left operand's row. -/
theorem lhs_gate_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_gate_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_gate_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_gate_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The forget gate's matrix product into the zero accumulator, at row p and column q: the plain sum over the contracted index. -/
theorem matmul_gate_apply (x : FVec Ideal S1000x256 .bf16) (y : FVec Ideal S256x256 .bf16) (p : Fin 1000) (q : Fin 256) :
    matmul (F := Ideal) dot_S1000x256_S256x256_S1000x256_1_0_0_1_n_n none x y (constant (F := Ideal) S1000x256 .f32 0x00000000#32) (ix2 p q)
      = ∑ k : Fin 256, x (ix2 p k) * y (ix2 k q) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhs_gate_0 _ _
    | ⟨1, _⟩ => exact (lhs_gate_1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhs_gate_0 _ _).trans hk
    | ⟨1, _⟩ => exact rhs_gate_1 _ _)
  rw [el, er]

/-- The one-row bias broadcast to 1000 rows reads its row 0. -/
theorem broadcastTo_bias256_apply {α : Type} (x : S1x256.Idx → α) (h : S1x256.Broadcasts S1000x256) (p : Fin 1000) (q : Fin 256) :
    broadcastTo S1000x256 x h (ix2 p q) = x (ix2 (0 : Fin 1) q) :=
  broadcastTo_apply x h (ix2 p q) (ix2 (0 : Fin 1) q) (fun a => match a with
    | ⟨0, _⟩ => rfl
    | ⟨1, _⟩ => rfl)

/-- The forget-gate body's stored value at row `p`, column `q` of its block. -/
theorem gate_pay (hb : Vec Ideal S1000x256 .f32) (w : Vec Ideal S256x256 .f32) (b : Vec Ideal S1x256 .f32)
    (cb : Vec Ideal S1000x256 .f32) (p : Fin 1000) (q : Fin 256) :
    k0_pay1 (F := Ideal) hb w b cb (ix2 p q) = Ideal.logistic (gatePre hb w b p q) * cb (ix2 p q) := by
  unfold k0_pay1
  simp only [shapeCast_self]
  rw [mulf_apply]
  refine congrArg (· * cb (ix2 p q)) ?_
  show Ideal.logistic _ = Ideal.logistic _
  refine congrArg Ideal.logistic ?_
  rw [addf_apply, broadcastTo_bias256_apply]
  unfold gatePre
  refine congrArg (· + b (ix2 (0 : Fin 1) q)) ?_
  exact (matmul_gate_apply _ _ p q).trans (Finset.sum_congr rfl fun k _ => rfl)

/-! ## The node body -/

/-- The node body's products: output axis 0 reads the left operand's row. -/
theorem lhs_iou_0 (i : S1000x768.Idx) (q : dot_S1000x256_S256x768_S1000x768_1_0_0_1_n_n.contr.Idx) :
    (dot_S1000x256_S256x768_S1000x768_1_0_0_1_n_n.lhsIdx i q 0).val = (i 0).val := by
  unfold DotDims.lhsIdx
  rw [dif_neg (show ¬(0 : Fin S1000x256.rank) ∈ dot_S1000x256_S256x768_S1000x768_1_0_0_1_n_n.lhsBatch by decide), dif_pos (show (0 : Fin S1000x256.rank) ∈ dot_S1000x256_S256x768_S1000x768_1_0_0_1_n_n.lhsNonContracting by decide)]
  rfl
theorem lhs_iou_1 (i : S1000x768.Idx) (q : dot_S1000x256_S256x768_S1000x768_1_0_0_1_n_n.contr.Idx) :
    (dot_S1000x256_S256x768_S1000x768_1_0_0_1_n_n.lhsIdx i q 1).val = (q ⟨0, by decide⟩).val :=
  dot_S1000x256_S256x768_S1000x768_1_0_0_1_n_n.lhsIdx_val_of_single rfl i q
theorem rhs_iou_0 (i : S1000x768.Idx) (q : dot_S1000x256_S256x768_S1000x768_1_0_0_1_n_n.contr.Idx) :
    (dot_S1000x256_S256x768_S1000x768_1_0_0_1_n_n.rhsIdx i q 0).val = (q ⟨0, by decide⟩).val :=
  dot_S1000x256_S256x768_S1000x768_1_0_0_1_n_n.rhsIdx_val_of_single rfl i q
theorem rhs_iou_1 (i : S1000x768.Idx) (q : dot_S1000x256_S256x768_S1000x768_1_0_0_1_n_n.contr.Idx) :
    (dot_S1000x256_S256x768_S1000x768_1_0_0_1_n_n.rhsIdx i q 1).val = (i 1).val := by
  unfold DotDims.rhsIdx
  rw [dif_neg (show ¬(1 : Fin S256x768.rank) ∈ dot_S1000x256_S256x768_S1000x768_1_0_0_1_n_n.rhsBatch by decide), dif_pos (show (1 : Fin S256x768.rank) ∈ dot_S1000x256_S256x768_S1000x768_1_0_0_1_n_n.rhsNonContracting by decide)]
  rfl

/-- Either of the node body's matrix products into the zero accumulator, at row p and column j of 768: the plain sum over the contracted index. -/
theorem matmul_iou_apply (x : FVec Ideal S1000x256 .bf16) (y : FVec Ideal S256x768 .bf16) (p : Fin 1000) (j : Fin 768) :
    matmul (F := Ideal) dot_S1000x256_S256x768_S1000x768_1_0_0_1_n_n none x y (constant (F := Ideal) S1000x768 .f32 0x00000000#32) (ix2 p j)
      = ∑ k : Fin 256, x (ix2 p k) * y (ix2 k j) := by
  simp only [matmul]
  rw [Ideal.matmul_constant_zero_apply, ← Equiv.sum_comp (contrEquiv1 dot_S1000x256_S256x768_S1000x768_1_0_0_1_n_n 256 rfl rfl).symm]
  refine Finset.sum_congr rfl fun k _ => ?_
  have hk := contrEquiv1_symm_val dot_S1000x256_S256x768_S1000x768_1_0_0_1_n_n 256 rfl rfl k
  have el : dot_S1000x256_S256x768_S1000x768_1_0_0_1_n_n.lhsIdx (ix2 p j) ((contrEquiv1 dot_S1000x256_S256x768_S1000x768_1_0_0_1_n_n 256 rfl rfl).symm k) = ix2 p k := funext fun a => Fin.ext (by
    match a with
    | ⟨0, _⟩ => exact lhs_iou_0 _ _
    | ⟨1, _⟩ => exact (lhs_iou_1 _ _).trans hk)
  have er : dot_S1000x256_S256x768_S1000x768_1_0_0_1_n_n.rhsIdx (ix2 p j) ((contrEquiv1 dot_S1000x256_S256x768_S1000x768_1_0_0_1_n_n 256 rfl rfl).symm k) = ix2 k j := funext fun a => Fin.ext (by
    match a with
    | ⟨0, _⟩ => exact (rhs_iou_0 _ _).trans hk
    | ⟨1, _⟩ => exact rhs_iou_1 _ _)
  rw [el, er]

/-- The one-row bias of 768 columns broadcast to 1000 rows reads its row 0. -/
theorem broadcastTo_bias768_apply {α : Type} (x : S1x768.Idx → α) (h : S1x768.Broadcasts S1000x768) (p : Fin 1000) (j : Fin 768) :
    broadcastTo S1000x768 x h (ix2 p j) = x (ix2 (0 : Fin 1) j) :=
  broadcastTo_apply x h (ix2 p j) (ix2 (0 : Fin 1) j) (fun a => match a with
    | ⟨0, _⟩ => rfl
    | ⟨1, _⟩ => rfl)

/-- The node body's joint pre-activation at row `p`, column `j` of 768. -/
theorem iou_pay (xb hb : Vec Ideal S1000x256 .f32) (w u : Vec Ideal S256x768 .f32) (b : Vec Ideal S1x768 .f32)
    (p : Fin 1000) (j : Fin 768) :
    k1_pay1 (F := Ideal) xb hb w u b (ix2 p j) = iou xb hb w u b p j := by
  unfold k1_pay1
  simp only [shapeCast_self]
  rw [addf_apply, addf_apply, broadcastTo_bias768_apply]
  unfold iou
  refine congrArg₂ (· + ·) (congrArg₂ (· + ·) ?_ ?_) rfl
  · exact (matmul_iou_apply _ _ p j).trans (Finset.sum_congr rfl fun k _ => rfl)
  · exact (matmul_iou_apply _ _ p j).trans (Finset.sum_congr rfl fun k _ => rfl)

/-- The slice at offset 0 of the 768 columns reads the input gate's third. -/
theorem slice_colI_apply {α : Type} (x : S1000x768.Idx → α) (h : S1000x768.Slices ![0, 0] S1000x256) (p : Fin 1000) (q : Fin 256) :
    extractStridedSlice S1000x256 ![0, 0] x h (ix2 p q) = x (ix2 p (colI q)) :=
  extractStridedSlice_apply ![0, 0] x h (ix2 p q) (ix2 p (colI q)) (fun a => match a with
    | ⟨0, _⟩ => by show p.val = 0 + p.val; omega
    | ⟨1, _⟩ => by show q.val = 0 + q.val; omega)
/-- The slice at offset 256 reads the output gate's third. -/
theorem slice_colO_apply {α : Type} (x : S1000x768.Idx → α) (h : S1000x768.Slices ![0, 256] S1000x256) (p : Fin 1000) (q : Fin 256) :
    extractStridedSlice S1000x256 ![0, 256] x h (ix2 p q) = x (ix2 p (colO q)) :=
  extractStridedSlice_apply ![0, 256] x h (ix2 p q) (ix2 p (colO q)) (fun a => match a with
    | ⟨0, _⟩ => by show p.val = 0 + p.val; omega
    | ⟨1, _⟩ => by show q.val + 256 = 256 + q.val; omega)
/-- The slice at offset 512 reads the update's third. -/
theorem slice_colU_apply {α : Type} (x : S1000x768.Idx → α) (h : S1000x768.Slices ![0, 512] S1000x256) (p : Fin 1000) (q : Fin 256) :
    extractStridedSlice S1000x256 ![0, 512] x h (ix2 p q) = x (ix2 p (colU q)) :=
  extractStridedSlice_apply ![0, 512] x h (ix2 p q) (ix2 p (colU q)) (fun a => match a with
    | ⟨0, _⟩ => by show p.val = 0 + p.val; omega
    | ⟨1, _⟩ => by show q.val + 512 = 512 + q.val; omega)

/-- The node body's new cell state at row `p`, column `q`. -/
theorem cell_pay (xb hb : Vec Ideal S1000x256 .f32) (w u : Vec Ideal S256x768 .f32) (b : Vec Ideal S1x768 .f32)
    (cb : Vec Ideal S1000x256 .f32) (p : Fin 1000) (q : Fin 256) :
    k1_pay2 (F := Ideal) xb hb w u b cb (ix2 p q)
      = Ideal.logistic (iou xb hb w u b p (colI q)) * Ideal.tanh (iou xb hb w u b p (colU q)) + cb (ix2 p q) := by
  unfold k1_pay2
  simp only [shapeCast_self]
  rw [addf_apply, mulf_apply]
  show Ideal.logistic (extractStridedSlice _ _ _ _ (ix2 p q)) * Ideal.tanh (extractStridedSlice _ _ _ _ (ix2 p q)) + cb (ix2 p q) = _
  rw [slice_colI_apply, slice_colU_apply, iou_pay, iou_pay]

/-- The node body's new hidden state at row `p`, column `q`. -/
theorem hid_pay (xb hb : Vec Ideal S1000x256 .f32) (w u : Vec Ideal S256x768 .f32) (b : Vec Ideal S1x768 .f32)
    (cb : Vec Ideal S1000x256 .f32) (p : Fin 1000) (q : Fin 256) :
    k1_pay3 (F := Ideal) xb hb w u b cb (ix2 p q)
      = Ideal.logistic (iou xb hb w u b p (colO q)) * Ideal.tanh (k1_pay2 (F := Ideal) xb hb w u b cb (ix2 p q)) := by
  unfold k1_pay3
  rw [mulf_apply]
  show Ideal.logistic (extractStridedSlice _ _ _ _ (ix2 p q)) * Ideal.tanh (k1_pay2 (F := Ideal) xb hb w u b cb (ix2 p q)) = _
  rw [slice_colO_apply, iou_pay]

end Cert.KernelIdeal.BodyPay

end
-- ==== Proof.GateArray.lean ====
/-
  What the forget-gate region leaves in its output array.

  The region's grid has 200 points; point `t` stages rows 1000·t … 1000·t + 999 of the two gathered arrays (all 256
  columns), the whole transposed weight and the whole one-row bias, and writes back rows 1000·t … 1000·t + 999 of the
  output. The body's stored value at row `p`, column `q` of the block is σ(gatePre p q) · (child cell)[p,q] of the staged
  blocks; a staged block's row `p` is the array's row 1000·t + p, so the block written back is the block of the
  whole-array function `gated`, and the 200 blocks tile the 200000 rows: the array ends holding `gated`.
-/
import proofs.«139482_j9380208575287_1_alg».proof.Proof.Gen.KernelIdeal.Frame
import proofs.«139482_j9380208575287_1_alg».proof.Proof.BodyPay
import proofs.«139482_j9380208575287_1_alg».proof.Proof.CellSpec
import Idealize.ShloMosaic.Lib.Pipeline.Value
import Idealize.ShloMosaic.Lib.ValueIdx

set_option maxRecDepth 16384

noncomputable section

namespace Cert.KernelIdeal.GateArray

open Cert.KernelIdeal Cert.KernelIdeal.Gen Cert.TreeCell
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the grid: the three row-blocked windows are at block row `t`, block column 0; the
    weight and the bias are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row 1000·t + p of the array. -/
abbrev rowAt (t : Fin cfg0.N) (p : Fin 1000) : Fin 200000 := ⟨t.val * 1000 + p.val, by
  have h1 : t.val < 200 := lt_of_lt_of_eq t.isLt N_0
  have h2 := p.isLt; omega⟩

/-- Point `t`'s block of the gathered hidden rows, read at (p, k): the array's row 1000·t + p, column k. -/
theorem read_hidden (c : Dev nD) (t : Fin cfg0.N) (p : Fin 1000) (k : Fin 256) :
    iblk0 V c 0 t (ix2 p k) = V c main_v6 (ix2 (rowAt t p) k) := by
  show V c main_v6 (((cfg0.win 0).blk t).view.emb (ix2 p k)) = _
  refine congrArg _ ?_
  obtain ⟨e0, e1, -⟩ := idx_facts t
  funext a; apply Fin.ext
  match a with
  | ⟨0, _⟩ => show win0_0.index t (0 : Fin 2) * 1000 + 1 * p.val = t.val * 1000 + p.val; omega
  | ⟨1, _⟩ => show win0_0.index t (1 : Fin 2) * 256 + 1 * k.val = k.val; omega

/-- Point `t`'s block of the gathered cell rows, read at (p, q). -/
theorem read_cell (c : Dev nD) (t : Fin cfg0.N) (p : Fin 1000) (q : Fin 256) :
    iblk0 V c 1 t (ix2 p q) = V c main_v13 (ix2 (rowAt t p) q) := by
  show V c main_v13 (((cfg0.win 1).blk t).view.emb (ix2 p q)) = _
  refine congrArg _ ?_
  obtain ⟨-, -, e0, e1, -⟩ := idx_facts t
  funext a; apply Fin.ext
  match a with
  | ⟨0, _⟩ => show win0_1.index t (0 : Fin 2) * 1000 + 1 * p.val = t.val * 1000 + p.val; omega
  | ⟨1, _⟩ => show win0_1.index t (1 : Fin 2) * 256 + 1 * q.val = q.val; omega

/-- The staged weight is the whole transposed weight at every point. -/
theorem read_weight (c : Dev nD) (t : Fin cfg0.N) (k q : Fin 256) :
    iblk0 V c 2 t (ix2 k q) = V c main_v14 (ix2 k q) := by
  show V c main_v14 (((cfg0.win 2).blk t).view.emb (ix2 k q)) = _
  refine congrArg _ ?_
  obtain ⟨-, -, -, -, e0, e1, -⟩ := idx_facts t
  funext a; apply Fin.ext
  match a with
  | ⟨0, _⟩ => show win0_2.index t (0 : Fin 2) * 256 + 1 * k.val = k.val; omega
  | ⟨1, _⟩ => show win0_2.index t (1 : Fin 2) * 256 + 1 * q.val = q.val; omega

/-- The staged bias is the whole one-row bias at every point. -/
theorem read_bias (c : Dev nD) (t : Fin cfg0.N) (z : Fin 1) (q : Fin 256) :
    iblk0 V c 3 t (ix2 z q) = V c main_v15 (ix2 z q) := by
  show V c main_v15 (((cfg0.win 3).blk t).view.emb (ix2 z q)) = _
  refine congrArg _ ?_
  obtain ⟨-, -, -, -, -, -, e0, e1, -⟩ := idx_facts t
  funext a; apply Fin.ext
  match a with
  | ⟨0, _⟩ => show win0_3.index t (0 : Fin 2) * 1 + 1 * z.val = z.val; omega
  | ⟨1, _⟩ => show win0_3.index t (1 : Fin 2) * 256 + 1 * q.val = q.val; omega

/-- Where element (p, q) of point `t`'s output block sits in the output array. -/
theorem emb_out (t : Fin cfg0.N) (p : Fin 1000) (q : Fin 256) :
    ((cfg0.win 4).blk t).view.emb (ix2 p q) = ix2 (rowAt t p) q := by
  obtain ⟨-, -, -, -, -, -, -, -, e0, e1⟩ := idx_facts t
  funext a; apply Fin.ext
  match a with
  | ⟨0, _⟩ => show win0_4.index t (0 : Fin 2) * 1000 + 1 * p.val = t.val * 1000 + p.val; omega
  | ⟨1, _⟩ => show win0_4.index t (1 : Fin 2) * 256 + 1 * q.val = q.val; omega

/-- The gate's pre-activation of the staged blocks at block row `p` is the arrays' at row 1000·t + p. -/
theorem gatePre_block (c : Dev nD) (t : Fin cfg0.N) (p : Fin 1000) (q : Fin 256) :
    gatePre (iblk0 V c 0 t) (iblk0 V c 2 t) (iblk0 V c 3 t) p q
      = gatePre (V c main_v6) (V c main_v14) (V c main_v15) (rowAt t p) q := by
  unfold gatePre
  rw [read_bias V c t 0 q]
  refine congrArg (· + _) (Finset.sum_congr rfl fun k _ => ?_)
  rw [read_hidden V c t p k, read_weight V c t k q]

/-- WHAT POINT `t` WRITES BACK is block `t` of `gated` of the arrays as the region finds them. -/
theorem flushed_eq (c : Dev nD) (t : Fin cfg0.N) :
    (dat0 V c).flushed 4 t
      = ((cfg0.win 4).blk t).view.read (Elt Ideal) (gated (V c main_v6) (V c main_v13) (V c main_v14) (V c main_v15)) := by
  show (cfg0.win 4).cut (grid0.coords t) ((dat0 V c).after 4 t) = _
  rw [after0_4]
  unfold out0_4
  rw [View.canon_unit_zero off_zero]
  simp only [View.ld_unit_zero (S := S1000x256) off_zero, View.ld_unit_zero (S := S256x256) off_zero, View.ld_unit_zero (S := S1x256) off_zero]
  funext j
  obtain ⟨p, q, rfl⟩ : ∃ (p : Fin 1000) (q : Fin 256), j = ix2 p q := ⟨j 0, j 1, eq_ix2 j⟩
  show k0_pay1 (iblk0 V c 0 t) (iblk0 V c 2 t) (iblk0 V c 3 t) (iblk0 V c 1 t) (ix2 p q)
    = gated (V c main_v6) (V c main_v13) (V c main_v14) (V c main_v15) (((cfg0.win 4).blk t).view.emb (ix2 p q))
  rw [emb_out t p q]
  refine (BodyPay.gate_pay (iblk0 V c 0 t) (iblk0 V c 2 t) (iblk0 V c 3 t) (iblk0 V c 1 t) p q).trans ?_
  rw [gatePre_block V c t p q, read_cell V c t p q]
  rfl

/-- An index of the array is in point `t`'s block iff each coordinate is in the block's range on its axis. -/
theorem mem_blk (t : Fin cfg0.N) (i : S200000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v18).slice (win0_4.rect t)).set ↔ _
  rw [View.set_slice_whole, Rect.mem_set_unit]
  exact Iff.rfl

/-- Every index of the output array is in the block of the point its row falls in. -/
theorem cover (i : S200000x256.Idx) :
    ∃ t : Fin cfg0.N, (cfg0.win 4).flush t = true ∧ i ∈ ((cfg0.win 4).blk t).view.set := by
  have hi0 : (i 0).val < 200000 := (i 0).isLt
  have hi1 : (i 1).val < 256 := (i 1).isLt
  have hN : grid0.N = 200 := N_0
  let t : Fin cfg0.N := ⟨(i 0).val / 1000, by show (i 0).val / 1000 < grid0.N; omega⟩
  refine ⟨t, flush0_4 t, ?_⟩
  rw [mem_blk]
  obtain ⟨-, -, -, -, -, -, -, -, e0, e1⟩ := idx_facts t
  have ht : t.val = (i 0).val / 1000 := rfl
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 256 ≤ (i 1).val ∧ (i 1).val < win0_4.index t (1 : Fin 2) * 256 + 256; omega

/-- THE ARRAY after the region: `gated` of the arrays as the region finds them. -/
theorem final (c : Dev nD) :
    (dat0 V c).arrAt 4 cfg0.N = gated (V c main_v6) (V c main_v13) (V c main_v14) (V c main_v15) :=
  (dat0 V c).arrAt_eq_of_cover 4 _ (fun t _ => flushed_eq V c t) cover

end Cert.KernelIdeal.GateArray

end
-- ==== Proof.NodeArray.lean ====
/-
  What the node-update region leaves in its two output arrays.

  The region's grid has 200 points; point `t` stages rows 1000·t … 1000·t + 999 of the node inputs, of the summed
  children's hidden states and of the summed gated cells (all 256 columns), the two whole transposed weights and the
  whole one-row bias, and writes back rows 1000·t … 1000·t + 999 of both outputs. At row `p`, column `q` of the block
  the body stores the new cell σ(iou p q) · tanh(iou p (q+512)) + (summed gated cells)[p,q] and the new hidden state
  σ(iou p (q+256)) · tanh(new cell), `iou` taken of the staged blocks; a staged block's row `p` is the array's row
  1000·t + p, so each block written back is the block of the whole-array function (`cellNew`, `hidNew`), and the
  200 blocks tile the 200000 rows.
-/
import proofs.«139482_j9380208575287_1_alg».proof.Proof.Gen.KernelIdeal.Frame
import proofs.«139482_j9380208575287_1_alg».proof.Proof.BodyPay
import proofs.«139482_j9380208575287_1_alg».proof.Proof.CellSpec
import Idealize.ShloMosaic.Lib.Pipeline.Value
import Idealize.ShloMosaic.Lib.ValueIdx

set_option maxRecDepth 16384

noncomputable section

namespace Cert.KernelIdeal.NodeArray

open Cert.KernelIdeal Cert.KernelIdeal.Gen Cert.TreeCell
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the grid: the five row-blocked windows are at block row `t`, block column 0; the two
    weights and the bias are at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of point `t`'s block is row 1000·t + p of the array. -/
abbrev rowAt (t : Fin cfg1.N) (p : Fin 1000) : Fin 200000 := ⟨t.val * 1000 + p.val, by
  have h1 : t.val < 200 := lt_of_lt_of_eq t.isLt N_1
  have h2 := p.isLt; omega⟩

/-- Point \`t\`'s block of the node inputs, read at (p, k): the array's row 1000·t + p, column k. -/
theorem read_input (c : Dev nD) (t : Fin cfg1.N) (p : Fin 1000) (k : Fin 256) :
    iblk1 V c 0 t (ix2 p k) = V c main_arg0 (ix2 (rowAt t p) k) := by
  show V c main_arg0 (((cfg1.win 0).blk t).view.emb (ix2 p k)) = _
  refine congrArg _ ?_
  obtain ⟨e0, e1, -⟩ := idx_facts t
  funext a; apply Fin.ext
  match a with
  | ⟨0, _⟩ => show win1_0.index t (0 : Fin 2) * 1000 + 1 * p.val = t.val * 1000 + p.val; omega
  | ⟨1, _⟩ => show win1_0.index t (1 : Fin 2) * 256 + 1 * k.val = k.val; omega

/-- Point \`t\`'s block of the summed children's hidden states, read at (p, k). -/
theorem read_hsum (c : Dev nD) (t : Fin cfg1.N) (p : Fin 1000) (k : Fin 256) :
    iblk1 V c 1 t (ix2 p k) = V c main_v21 (ix2 (rowAt t p) k) := by
  show V c main_v21 (((cfg1.win 1).blk t).view.emb (ix2 p k)) = _
  refine congrArg _ ?_
  obtain ⟨-, -, e0, e1, -⟩ := idx_facts t
  funext a; apply Fin.ext
  match a with
  | ⟨0, _⟩ => show win1_1.index t (0 : Fin 2) * 1000 + 1 * p.val = t.val * 1000 + p.val; omega
  | ⟨1, _⟩ => show win1_1.index t (1 : Fin 2) * 256 + 1 * k.val = k.val; omega

/-- Point \`t\`'s block of the summed gated cells, read at (p, q). -/
theorem read_csum (c : Dev nD) (t : Fin cfg1.N) (p : Fin 1000) (q : Fin 256) :
    iblk1 V c 2 t (ix2 p q) = V c main_v24 (ix2 (rowAt t p) q) := by
  show V c main_v24 (((cfg1.win 2).blk t).view.emb (ix2 p q)) = _
  refine congrArg _ ?_
  obtain ⟨-, -, -, -, e0, e1, -⟩ := idx_facts t
  funext a; apply Fin.ext
  match a with
  | ⟨0, _⟩ => show win1_2.index t (0 : Fin 2) * 1000 + 1 * p.val = t.val * 1000 + p.val; omega
  | ⟨1, _⟩ => show win1_2.index t (1 : Fin 2) * 256 + 1 * q.val = q.val; omega

/-- The staged input weight is the whole transposed weight at every point. -/
theorem read_win (c : Dev nD) (t : Fin cfg1.N) (k : Fin 256) (j : Fin 768) :
    iblk1 V c 3 t (ix2 k j) = V c main_v16 (ix2 k j) := by
  show V c main_v16 (((cfg1.win 3).blk t).view.emb (ix2 k j)) = _
  refine congrArg _ ?_
  obtain ⟨-, -, -, -, -, -, e0, e1, -⟩ := idx_facts t
  funext a; apply Fin.ext
  match a with
  | ⟨0, _⟩ => show win1_3.index t (0 : Fin 2) * 256 + 1 * k.val = k.val; omega
  | ⟨1, _⟩ => show win1_3.index t (1 : Fin 2) * 768 + 1 * j.val = j.val; omega

/-- The staged recurrent weight is the whole transposed weight at every point. -/
theorem read_wrec (c : Dev nD) (t : Fin cfg1.N) (k : Fin 256) (j : Fin 768) :
    iblk1 V c 4 t (ix2 k j) = V c main_v17 (ix2 k j) := by
  show V c main_v17 (((cfg1.win 4).blk t).view.emb (ix2 k j)) = _
  refine congrArg _ ?_
  obtain ⟨-, -, -, -, -, -, -, -, e0, e1, -⟩ := idx_facts t
  funext a; apply Fin.ext
  match a with
  | ⟨0, _⟩ => show win1_4.index t (0 : Fin 2) * 256 + 1 * k.val = k.val; omega
  | ⟨1, _⟩ => show win1_4.index t (1 : Fin 2) * 768 + 1 * j.val = j.val; omega

/-- The staged bias is the whole one-row bias at every point. -/
theorem read_bias (c : Dev nD) (t : Fin cfg1.N) (z : Fin 1) (j : Fin 768) :
    iblk1 V c 5 t (ix2 z j) = V c main_arg5 (ix2 z j) := by
  show V c main_arg5 (((cfg1.win 5).blk t).view.emb (ix2 z j)) = _
  refine congrArg _ ?_
  obtain ⟨-, -, -, -, -, -, -, -, -, -, e0, e1, -⟩ := idx_facts t
  funext a; apply Fin.ext
  match a with
  | ⟨0, _⟩ => show win1_5.index t (0 : Fin 2) * 1 + 1 * z.val = z.val; omega
  | ⟨1, _⟩ => show win1_5.index t (1 : Fin 2) * 768 + 1 * j.val = j.val; omega

/-- Where element (p, q) of point `t`'s hidden-state output block sits in its array. -/
theorem emb_hid (t : Fin cfg1.N) (p : Fin 1000) (q : Fin 256) :
    ((cfg1.win 6).blk t).view.emb (ix2 p q) = ix2 (rowAt t p) q := by
  obtain ⟨-, -, -, -, -, -, -, -, -, -, -, -, e0, e1, -⟩ := idx_facts t
  funext a; apply Fin.ext
  match a with
  | ⟨0, _⟩ => show win1_6.index t (0 : Fin 2) * 1000 + 1 * p.val = t.val * 1000 + p.val; omega
  | ⟨1, _⟩ => show win1_6.index t (1 : Fin 2) * 256 + 1 * q.val = q.val; omega

/-- Where element (p, q) of point `t`'s cell-state output block sits in its array. -/
theorem emb_cell (t : Fin cfg1.N) (p : Fin 1000) (q : Fin 256) :
    ((cfg1.win 7).blk t).view.emb (ix2 p q) = ix2 (rowAt t p) q := by
  obtain ⟨-, -, -, -, -, -, -, -, -, -, -, -, -, -, e0, e1⟩ := idx_facts t
  funext a; apply Fin.ext
  match a with
  | ⟨0, _⟩ => show win1_7.index t (0 : Fin 2) * 1000 + 1 * p.val = t.val * 1000 + p.val; omega
  | ⟨1, _⟩ => show win1_7.index t (1 : Fin 2) * 256 + 1 * q.val = q.val; omega

/-- The joint pre-activation of the staged blocks at block row `p` is the arrays' at row 1000·t + p. -/
theorem iou_block (c : Dev nD) (t : Fin cfg1.N) (p : Fin 1000) (j : Fin 768) :
    iou (iblk1 V c 0 t) (iblk1 V c 1 t) (iblk1 V c 3 t) (iblk1 V c 4 t) (iblk1 V c 5 t) p j
      = iou (V c main_arg0) (V c main_v21) (V c main_v16) (V c main_v17) (V c main_arg5) (rowAt t p) j := by
  unfold iou
  rw [read_bias V c t 0 j]
  refine congrArg (· + _) (congrArg₂ (· + ·) (Finset.sum_congr rfl fun k _ => ?_) (Finset.sum_congr rfl fun k _ => ?_))
  · rw [read_input V c t p k, read_win V c t k j]
  · rw [read_hsum V c t p k, read_wrec V c t k j]

/-- The new cell state of the staged blocks at (p, q) is `cellNew` of the arrays at (1000·t + p, q). -/
theorem cell_block (c : Dev nD) (t : Fin cfg1.N) (p : Fin 1000) (q : Fin 256) :
    k1_pay2 (iblk1 V c 0 t) (iblk1 V c 1 t) (iblk1 V c 3 t) (iblk1 V c 4 t) (iblk1 V c 5 t) (iblk1 V c 2 t) (ix2 p q)
      = cellNew (V c main_arg0) (V c main_v21) (V c main_v24) (V c main_v16) (V c main_v17) (V c main_arg5) (ix2 (rowAt t p) q) := by
  refine (BodyPay.cell_pay (iblk1 V c 0 t) (iblk1 V c 1 t) (iblk1 V c 3 t) (iblk1 V c 4 t) (iblk1 V c 5 t) (iblk1 V c 2 t) p q).trans ?_
  rw [iou_block V c t p (colI q), iou_block V c t p (colU q), read_csum V c t p q]
  rfl

/-- WHAT POINT `t` WRITES BACK to the cell-state output is block `t` of `cellNew` of the arrays as the region finds them. -/
theorem flushed_cell (c : Dev nD) (t : Fin cfg1.N) :
    (dat1 V c).flushed 7 t
      = ((cfg1.win 7).blk t).view.read (Elt Ideal) (cellNew (V c main_arg0) (V c main_v21) (V c main_v24) (V c main_v16) (V c main_v17) (V c main_arg5)) := by
  show (cfg1.win 7).cut (grid1.coords t) ((dat1 V c).after 7 t) = _
  rw [after1_7]
  unfold out1_7
  rw [View.canon_unit_zero off_zero]
  simp only [View.ld_unit_zero (S := S1000x256) off_zero, View.ld_unit_zero (S := S256x768) off_zero, View.ld_unit_zero (S := S1x768) off_zero]
  funext j
  obtain ⟨p, q, rfl⟩ : ∃ (p : Fin 1000) (q : Fin 256), j = ix2 p q := ⟨j 0, j 1, eq_ix2 j⟩
  show k1_pay2 (iblk1 V c 0 t) (iblk1 V c 1 t) (iblk1 V c 3 t) (iblk1 V c 4 t) (iblk1 V c 5 t) (iblk1 V c 2 t) (ix2 p q)
    = cellNew (V c main_arg0) (V c main_v21) (V c main_v24) (V c main_v16) (V c main_v17) (V c main_arg5) (((cfg1.win 7).blk t).view.emb (ix2 p q))
  rw [emb_cell t p q]
  exact cell_block V c t p q

/-- WHAT POINT `t` WRITES BACK to the hidden-state output is block `t` of `hidNew` of the arrays as the region finds them. -/
theorem flushed_hid (c : Dev nD) (t : Fin cfg1.N) :
    (dat1 V c).flushed 6 t
      = ((cfg1.win 6).blk t).view.read (Elt Ideal) (hidNew (V c main_arg0) (V c main_v21) (V c main_v24) (V c main_v16) (V c main_v17) (V c main_arg5)) := by
  show (cfg1.win 6).cut (grid1.coords t) ((dat1 V c).after 6 t) = _
  rw [after1_6]
  unfold out1_6
  rw [View.canon_unit_zero off_zero]
  simp only [View.ld_unit_zero (S := S1000x256) off_zero, View.ld_unit_zero (S := S256x768) off_zero, View.ld_unit_zero (S := S1x768) off_zero]
  funext j
  obtain ⟨p, q, rfl⟩ : ∃ (p : Fin 1000) (q : Fin 256), j = ix2 p q := ⟨j 0, j 1, eq_ix2 j⟩
  show k1_pay3 (iblk1 V c 0 t) (iblk1 V c 1 t) (iblk1 V c 3 t) (iblk1 V c 4 t) (iblk1 V c 5 t) (iblk1 V c 2 t) (ix2 p q)
    = hidNew (V c main_arg0) (V c main_v21) (V c main_v24) (V c main_v16) (V c main_v17) (V c main_arg5) (((cfg1.win 6).blk t).view.emb (ix2 p q))
  rw [emb_hid t p q]
  refine (BodyPay.hid_pay (iblk1 V c 0 t) (iblk1 V c 1 t) (iblk1 V c 3 t) (iblk1 V c 4 t) (iblk1 V c 5 t) (iblk1 V c 2 t) p q).trans ?_
  rw [iou_block V c t p (colO q), cell_block V c t p q]
  rfl

/-- An index of the hidden-state array is in point `t`'s block iff each coordinate is in the block's range on its axis. -/
theorem mem_blk_hid (t : Fin cfg1.N) (i : S200000x256.Idx) :
    i ∈ ((cfg1.win 6).blk t).view.set ↔ ∀ a : Fin 2, win1_6.index t a * S1000x256.size a ≤ (i a).val ∧ (i a).val < win1_6.index t a * S1000x256.size a + S1000x256.size a := by
  show i ∈ ((View.whole main_v25_0).slice (win1_6.rect t)).set ↔ _
  rw [View.set_slice_whole, Rect.mem_set_unit]
  exact Iff.rfl

/-- The same for the cell-state array. -/
theorem mem_blk_cell (t : Fin cfg1.N) (i : S200000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v25_1).slice (win1_7.rect t)).set ↔ _
  rw [View.set_slice_whole, Rect.mem_set_unit]
  exact Iff.rfl

/-- Every index of the hidden-state array is in the block of the point its row falls in. -/
theorem cover_hid (i : S200000x256.Idx) :
    ∃ t : Fin cfg1.N, (cfg1.win 6).flush t = true ∧ i ∈ ((cfg1.win 6).blk t).view.set := by
  have hi0 : (i 0).val < 200000 := (i 0).isLt
  have hi1 : (i 1).val < 256 := (i 1).isLt
  have hN : grid1.N = 200 := N_1
  let t : Fin cfg1.N := ⟨(i 0).val / 1000, by show (i 0).val / 1000 < grid1.N; omega⟩
  refine ⟨t, flush1_6 t, ?_⟩
  rw [mem_blk_hid]
  obtain ⟨-, -, -, -, -, -, -, -, -, -, -, -, e0, e1, -⟩ := idx_facts t
  have ht : t.val = (i 0).val / 1000 := rfl
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 256 ≤ (i 1).val ∧ (i 1).val < win1_6.index t (1 : Fin 2) * 256 + 256; omega

/-- Every index of the cell-state array is in the block of the point its row falls in. -/
theorem cover_cell (i : S200000x256.Idx) :
    ∃ t : Fin cfg1.N, (cfg1.win 7).flush t = true ∧ i ∈ ((cfg1.win 7).blk t).view.set := by
  have hi0 : (i 0).val < 200000 := (i 0).isLt
  have hi1 : (i 1).val < 256 := (i 1).isLt
  have hN : grid1.N = 200 := N_1
  let t : Fin cfg1.N := ⟨(i 0).val / 1000, by show (i 0).val / 1000 < grid1.N; omega⟩
  refine ⟨t, flush1_7 t, ?_⟩
  rw [mem_blk_cell]
  obtain ⟨-, -, -, -, -, -, -, -, -, -, -, -, -, -, e0, e1⟩ := idx_facts t
  have ht : t.val = (i 0).val / 1000 := rfl
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 256 ≤ (i 1).val ∧ (i 1).val < win1_7.index t (1 : Fin 2) * 256 + 256; omega

/-- THE HIDDEN-STATE ARRAY after the region: `hidNew` of the arrays as the region finds them. -/
theorem final_hid (c : Dev nD) :
    (dat1 V c).arrAt 6 cfg1.N = hidNew (V c main_arg0) (V c main_v21) (V c main_v24) (V c main_v16) (V c main_v17) (V c main_arg5) :=
  (dat1 V c).arrAt_eq_of_cover 6 _ (fun t _ => flushed_hid V c t) cover_hid

/-- THE CELL-STATE ARRAY after the region: `cellNew` of the arrays as the region finds them. -/
theorem final_cell (c : Dev nD) :
    (dat1 V c).arrAt 7 cfg1.N = cellNew (V c main_arg0) (V c main_v21) (V c main_v24) (V c main_v16) (V c main_v17) (V c main_arg5) :=
  (dat1 V c).arrAt_eq_of_cover 7 _ (fun t _ => flushed_cell V c t) cover_cell

end Cert.KernelIdeal.NodeArray

end
-- ==== Proof.HostStages.lean ====
/-
  The host operations around the two regions, read as whole-array functions.

  Before the first region the program normalises the edge sources (a negative index counts from the end), gathers the
  children's hidden and cell rows, transposes the three weights and lays the forget bias out as one row; between the
  regions it sums the gathered hidden rows and the gated cells per destination node (a scatter-add into zeros). The
  reference program performs the very same operations, so each buffer's contents are stated here with the reference's
  own stage functions: the gather, scatter-add and transpose stages are carried as they are, never opened. The one stage
  the two programs spell differently is the bias row: a reshape of the 256 biases to one row here, a broadcast there;
  both read bias `q` at (0, q).
-/
import proofs.«139482_j9380208575287_1_alg».proof.Proof.Gen.KernelIdeal.Launch
import proofs.«139482_j9380208575287_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.HostStages

open Cert.KernelIdeal Cert.KernelIdeal.Gen
open Idealize.ShloMosaic Idealize.ShloMosaic.TcCoe Idealize.ShloMosaic.StableHlo Idealize.ShloMosaic.ValueIdx
open Idealize.SL Idealize.SL.Sem

variable {F : FTy → Type} [FloatOps F]

/-- After the first stretch: the gathered children's hidden rows. -/
theorem hidden_rows (X : Valuation τ sig (Elt F)) :
    StableHlo.after hostOps0 X (Proc.devRef .tc main_v6)
      = Cert.ReferenceIdeal.Read.val_main_v6 (F := F) (X (Proc.devRef .tc main_arg1)) (X (Proc.devRef .tc main_arg8)) := by
  after_results
  rfl

/-- The gathered children's cell rows. -/
theorem cell_rows (X : Valuation τ sig (Elt F)) :
    StableHlo.after hostOps0 X (Proc.devRef .tc main_v13)
      = Cert.ReferenceIdeal.Read.val_main_v13 (F := F) (X (Proc.devRef .tc main_arg2)) (X (Proc.devRef .tc main_arg8)) := by
  after_results
  rfl

/-- The forget weight transposed. -/
theorem gate_weight (X : Valuation τ sig (Elt F)) :
    StableHlo.after hostOps0 X (Proc.devRef .tc main_v14)
      = Cert.ReferenceIdeal.Read.val_main_v14 (F := F) (X (Proc.devRef .tc main_arg6)) := by
  after_results
  rfl

/-- The input weight transposed. -/
theorem input_weight (X : Valuation τ sig (Elt F)) :
    StableHlo.after hostOps0 X (Proc.devRef .tc main_v16)
      = Cert.ReferenceIdeal.Read.val_main_v32 (F := F) (X (Proc.devRef .tc main_arg3)) := by
  after_results
  rfl

/-- The recurrent weight transposed. -/
theorem rec_weight (X : Valuation τ sig (Elt F)) :
    StableHlo.after hostOps0 X (Proc.devRef .tc main_v17)
      = Cert.ReferenceIdeal.Read.val_main_v34 (F := F) (X (Proc.devRef .tc main_arg4)) := by
  after_results
  rfl

/-- The forget bias as one row, as this program lays it out: a reshape of the 256 biases. -/
theorem gate_bias_reshaped (X : Valuation τ sig (Elt F)) :
    StableHlo.after hostOps0 X (Proc.devRef .tc main_v15)
      = shapeCast S1x256 (X (Proc.devRef .tc main_arg7)) shapeCasts_S256_S1x256 := by
  after_results
  rfl

/-- The reshaped bias row is the reference's broadcast bias row: both hold bias `q` at (0, q). -/
theorem bias_row_eq (x7 : (⟨S256, .f32⟩ : BufTy).Contents (Elt F)) :
    shapeCast S1x256 x7 shapeCasts_S256_S1x256 = Cert.ReferenceIdeal.Read.val_main_v16 (F := F) x7 := by
  funext i
  rw [Cert.ReferenceIdeal.Read.val_main_v16_apply]
  refine (shapeCast_addUnit_apply ![256] x7 _ i).trans (congrArg x7 ?_)
  funext a
  match a with
  | ⟨0, _⟩ => rfl

/-- None of the first stretch's operations writes an argument: the node inputs, -/
theorem inputs_kept0 (X : Valuation τ sig (Elt F)) :
    StableHlo.after hostOps0 X (Proc.devRef .tc main_arg0) = X (Proc.devRef .tc main_arg0) := by
  after_results
/-- the joint bias, -/
theorem bias_kept0 (X : Valuation τ sig (Elt F)) :
    StableHlo.after hostOps0 X (Proc.devRef .tc main_arg5) = X (Proc.devRef .tc main_arg5) := by
  after_results
/-- the edge destinations. -/
theorem dst_kept0 (X : Valuation τ sig (Elt F)) :
    StableHlo.after hostOps0 X (Proc.devRef .tc main_arg9) = X (Proc.devRef .tc main_arg9) := by
  after_results

/-- After the second stretch: the children's hidden rows summed per destination node. -/
theorem hidden_sum (Y : Valuation τ sig (Elt F)) :
    StableHlo.after hostOps1 Y (Proc.devRef .tc main_v21)
      = Host.scatterAdd Cert.ReferenceIdeal.scatter_S200000x256_S200000x1_S200000x256_1_0_0_1 (Cert.ReferenceIdeal.Read.val_main_v25 (F := F))
          (Cert.ReferenceIdeal.Read.val_main_v26 (F := F) (Y (Proc.devRef .tc main_arg9))) (Y (Proc.devRef .tc main_v6)) := by
  after_results
  rfl

/-- The gated cells summed per destination node. -/
theorem gated_sum (Y : Valuation τ sig (Elt F)) :
    StableHlo.after hostOps1 Y (Proc.devRef .tc main_v24)
      = Host.scatterAdd Cert.ReferenceIdeal.scatter_S200000x256_S200000x1_S200000x256_1_0_0_1 (Cert.ReferenceIdeal.Read.val_main_v29 (F := F))
          (Cert.ReferenceIdeal.Read.val_main_v30 (F := F) (Y (Proc.devRef .tc main_arg9))) (Y (Proc.devRef .tc main_v18)) := by
  after_results
  rfl

/-- The second stretch leaves the node inputs, the two transposed weights and the joint bias as they were. -/
theorem inputs_kept1 (Y : Valuation τ sig (Elt F)) :
    StableHlo.after hostOps1 Y (Proc.devRef .tc main_arg0) = Y (Proc.devRef .tc main_arg0) := by
  after_results
theorem input_weight_kept1 (Y : Valuation τ sig (Elt F)) :
    StableHlo.after hostOps1 Y (Proc.devRef .tc main_v16) = Y (Proc.devRef .tc main_v16) := by
  after_results
theorem rec_weight_kept1 (Y : Valuation τ sig (Elt F)) :
    StableHlo.after hostOps1 Y (Proc.devRef .tc main_v17) = Y (Proc.devRef .tc main_v17) := by
  after_results
theorem bias_kept1 (Y : Valuation τ sig (Elt F)) :
    StableHlo.after hostOps1 Y (Proc.devRef .tc main_arg5) = Y (Proc.devRef .tc main_arg5) := by
  after_results

end Cert.KernelIdeal.HostStages

end
-- ==== Proof.RefCell.lean ====
/-
  The reference program's stages are the tree-LSTM cell's functions.

  Read one operation at a time, the reference computes, per edge, `1 / (1 + exp(-(h_child · U_fᵀ + b_f)))` times the
  child's cell, and per node `x · W_iouᵀ + h~ · U_iouᵀ + b_iou`, split in three, then `i·u + c_agg` and
  `o · tanh(c_new)`. On the extended reals the quotient `1 / (1 + e^(-z))` IS the logistic function (its value at
  −∞ is 0 and at +∞ is 1, by the conventions of division and exponential there), the host's `dot_general` is the
  plain sum over the contracted index, and the literal `1.0` denotes the real number 1. So each stage below equals
  the corresponding function of `CellSpec`, with the gather / scatter / transpose stages carried as they are.
-/
import proofs.«139482_j9380208575287_1_alg».proof.Proof.Gen.ReferenceIdeal.Read
import proofs.«139482_j9380208575287_1_alg».proof.Proof.CellSpec
import Idealize.ShloMosaic.Lib.ValueIdx
import Idealize.ShloMosaic.Lib.Pipeline.Value
import Idealize.ShloMosaic.PureOps.Ideal.Laws
import Idealize.ShloMosaic.PureOps.IdealRules

noncomputable section

namespace Cert.ReferenceIdeal.RefCell

open Cert.ReferenceIdeal Cert.ReferenceIdeal.Read Cert.TreeCell Idealize.ShloMosaic Idealize.ShloMosaic.ValueIdx
open scoped BigOperators

/-! ### Scalars: the literal one, and the quotient that is the logistic function -/

/-- The literal `1.0` of the program denotes the number 1. -/
theorem one_word : Ideal.ofBits .f32 0x3F800000#32 = 1 := IdealRules.sign_bit.ideal_onePat .f32

/-- `1 / (1 + exp (−z))`, both ones spelt as the program's literal, is the logistic function of `z`: on the extended
    reals that is how the logistic function is defined, the values at ±∞ included. -/
theorem quotient_eq_logistic (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := by
  rw [Ideal.ofBits_def, one_word]; rfl

/-! ### Where each contraction and each bias row is read: row `r` against column `c` -/

/-- The forget gate's contraction reads the child's hidden row at `(row, k)`, -/
theorem gateHiddenAt_eq (i : S200000x256.Idx) (k : Fin 256) : lidx_main_v15 i k = ix2 (rowOf i) k :=
  funext fun a => Fin.ext (by match a with | ⟨0, _⟩ => rfl | ⟨1, _⟩ => rfl)
/-- the transposed weight at `(k, column)`, -/
theorem gateWeightAt_eq (i : S200000x256.Idx) (k : Fin 256) : ridx_main_v15 i k = ix2 k (colOf i) :=
  funext fun a => Fin.ext (by match a with | ⟨0, _⟩ => rfl | ⟨1, _⟩ => rfl)
/-- and the bias row at `(0, column)`. -/
theorem gateBiasAt_eq (i : S200000x256.Idx) : idx_main_v17 i = ix2 (0 : Fin 1) (colOf i) :=
  funext fun a => Fin.ext (by match a with | ⟨0, _⟩ => rfl | ⟨1, _⟩ => rfl)

/-- The row of an index of the rows × 768 array, -/
abbrev rowOf768 (j : S200000x768.Idx) : Fin 200000 := ⟨(j 0).val, (j 0).isLt⟩
/-- and its column among the 768. -/
abbrev colOf768 (j : S200000x768.Idx) : Fin 768 := ⟨(j 1).val, (j 1).isLt⟩

/-- The node input's contraction reads the input row at `(row, k)` -/
theorem inputRowAt_eq (j : S200000x768.Idx) (k : Fin 256) : lidx_main_v33 j k = ix2 (rowOf768 j) k :=
  funext fun a => Fin.ext (by match a with | ⟨0, _⟩ => rfl | ⟨1, _⟩ => rfl)
/-- and its transposed weight at `(k, column)`; -/
theorem inputWeightAt_eq (j : S200000x768.Idx) (k : Fin 256) : ridx_main_v33 j k = ix2 k (colOf768 j) :=
  funext fun a => Fin.ext (by match a with | ⟨0, _⟩ => rfl | ⟨1, _⟩ => rfl)
/-- the summed children's contraction reads likewise, -/
theorem childSumRowAt_eq (j : S200000x768.Idx) (k : Fin 256) : lidx_main_v35 j k = ix2 (rowOf768 j) k :=
  funext fun a => Fin.ext (by match a with | ⟨0, _⟩ => rfl | ⟨1, _⟩ => rfl)
theorem childSumWeightAt_eq (j : S200000x768.Idx) (k : Fin 256) : ridx_main_v35 j k = ix2 k (colOf768 j) :=
  funext fun a => Fin.ext (by match a with | ⟨0, _⟩ => rfl | ⟨1, _⟩ => rfl)
/-- and the joint bias is read at `(0, column)`. -/
theorem jointBiasAt_eq (j : S200000x768.Idx) : idx_main_v37 j = ix2 (0 : Fin 1) (colOf768 j) :=
  funext fun a => Fin.ext (by match a with | ⟨0, _⟩ => rfl | ⟨1, _⟩ => rfl)

/-! ### The three gates' joint pre-activation, at any column of the 768 and at the three thirds -/

/-- Input contraction plus children's contraction, plus bias, at row `r` and column `c` of 768, is `iou r c`: the
    reference adds in that order. -/
theorem preact_eq_iou (x0 x1 : (⟨S200000x256, .f32⟩ : BufTy).Contents (Elt Ideal)) (x3 x4 : (⟨S768x256, .f32⟩ : BufTy).Contents (Elt Ideal))
    (x5 : (⟨S1x768, .f32⟩ : BufTy).Contents (Elt Ideal)) (x8 x9 : (⟨S200000, .i32⟩ : BufTy).Contents (Elt Ideal)) (j : S200000x768.Idx) :
    val_main_v38 (F := Ideal) x0 x1 x3 x4 x5 x8 x9 j
      = iou (n := 200000) x0 (val_main_v27 (F := Ideal) x1 x8 x9) (val_main_v32 (F := Ideal) x3) (val_main_v34 (F := Ideal) x4) x5
          (rowOf768 j) (colOf768 j) := by
  rw [val_main_v38_apply, val_main_v36_apply, val_main_v33_apply, val_main_v35_apply, val_main_v37_apply]
  simp only [inputRowAt_eq, inputWeightAt_eq, childSumRowAt_eq, childSumWeightAt_eq, jointBiasAt_eq]
  rfl

/-- The first third of the columns is the input gate's: column `q` of the slice is column `q` of the 768. -/
theorem inputThird_eq (x0 x1 : (⟨S200000x256, .f32⟩ : BufTy).Contents (Elt Ideal)) (x3 x4 : (⟨S768x256, .f32⟩ : BufTy).Contents (Elt Ideal))
    (x5 : (⟨S1x768, .f32⟩ : BufTy).Contents (Elt Ideal)) (x8 x9 : (⟨S200000, .i32⟩ : BufTy).Contents (Elt Ideal)) (i : S200000x256.Idx) :
    val_main_v39 (F := Ideal) x0 x1 x3 x4 x5 x8 x9 i
      = iou (n := 200000) x0 (val_main_v27 (F := Ideal) x1 x8 x9) (val_main_v32 (F := Ideal) x3) (val_main_v34 (F := Ideal) x4) x5
          (rowOf i) (colI (colOf i)) := by
  rw [val_main_v39_apply, preact_eq_iou]

/-- The second third is the output gate's: column `q` of the slice is column `q + 256`. -/
theorem outputThird_eq (x0 x1 : (⟨S200000x256, .f32⟩ : BufTy).Contents (Elt Ideal)) (x3 x4 : (⟨S768x256, .f32⟩ : BufTy).Contents (Elt Ideal))
    (x5 : (⟨S1x768, .f32⟩ : BufTy).Contents (Elt Ideal)) (x8 x9 : (⟨S200000, .i32⟩ : BufTy).Contents (Elt Ideal)) (i : S200000x256.Idx) :
    val_main_v40 (F := Ideal) x0 x1 x3 x4 x5 x8 x9 i
      = iou (n := 200000) x0 (val_main_v27 (F := Ideal) x1 x8 x9) (val_main_v32 (F := Ideal) x3) (val_main_v34 (F := Ideal) x4) x5
          (rowOf i) (colO (colOf i)) := by
  rw [val_main_v40_apply, preact_eq_iou]
  exact congrArg _ (Fin.ext (Nat.add_comm 256 (i 1).val))

/-- The last third is the update's: column `q` of the slice is column `q + 512`. -/
theorem updateThird_eq (x0 x1 : (⟨S200000x256, .f32⟩ : BufTy).Contents (Elt Ideal)) (x3 x4 : (⟨S768x256, .f32⟩ : BufTy).Contents (Elt Ideal))
    (x5 : (⟨S1x768, .f32⟩ : BufTy).Contents (Elt Ideal)) (x8 x9 : (⟨S200000, .i32⟩ : BufTy).Contents (Elt Ideal)) (i : S200000x256.Idx) :
    val_main_v41 (F := Ideal) x0 x1 x3 x4 x5 x8 x9 i
      = iou (n := 200000) x0 (val_main_v27 (F := Ideal) x1 x8 x9) (val_main_v32 (F := Ideal) x3) (val_main_v34 (F := Ideal) x4) x5
          (rowOf i) (colU (colOf i)) := by
  rw [val_main_v41_apply, preact_eq_iou]
  exact congrArg _ (Fin.ext (Nat.add_comm 512 (i 1).val))

/-- The per-edge product `f · c_child` is `gated` of the two gathered arrays, the transposed forget weight and the
    bias broadcast to one row. -/
theorem gated_eq (x1 x2 : (⟨S200000x256, .f32⟩ : BufTy).Contents (Elt Ideal)) (x6 : (⟨S256x256, .f32⟩ : BufTy).Contents (Elt Ideal))
    (x7 : (⟨S256, .f32⟩ : BufTy).Contents (Elt Ideal)) (x8 : (⟨S200000, .i32⟩ : BufTy).Contents (Elt Ideal)) :
    val_main_v28 (F := Ideal) x1 x2 x6 x7 x8
      = gated (val_main_v6 (F := Ideal) x1 x8) (val_main_v13 (F := Ideal) x2 x8) (val_main_v14 (F := Ideal) x6) (val_main_v16 (F := Ideal) x7) := by
  funext i
  rw [val_main_v28_apply, val_main_v24_apply, val_main_v23_apply, val_main_cst_3_apply, val_main_v22_apply,
    val_main_v21_apply, val_main_cst_apply, val_main_v20_apply, val_main_v19_apply, val_main_v18_apply,
    val_main_v15_apply, val_main_v17_apply, quotient_eq_logistic]
  simp only [gateHiddenAt_eq, gateWeightAt_eq, gateBiasAt_eq]
  rfl

/-- The reference's new cell state is `cellNew` of the node inputs, the two segment sums and the transposed weights. -/
theorem cell_eq (x0 x1 x2 : (⟨S200000x256, .f32⟩ : BufTy).Contents (Elt Ideal)) (x3 x4 : (⟨S768x256, .f32⟩ : BufTy).Contents (Elt Ideal))
    (x5 : (⟨S1x768, .f32⟩ : BufTy).Contents (Elt Ideal)) (x6 : (⟨S256x256, .f32⟩ : BufTy).Contents (Elt Ideal))
    (x7 : (⟨S256, .f32⟩ : BufTy).Contents (Elt Ideal)) (x8 x9 : (⟨S200000, .i32⟩ : BufTy).Contents (Elt Ideal)) :
    val_main_v56 (F := Ideal) x0 x1 x2 x3 x4 x5 x6 x7 x8 x9
      = cellNew x0 (val_main_v27 (F := Ideal) x1 x8 x9) (val_main_v31 (F := Ideal) x1 x2 x6 x7 x8 x9)
          (val_main_v32 (F := Ideal) x3) (val_main_v34 (F := Ideal) x4) x5 := by
  funext i
  rw [val_main_v56_apply, val_main_v55_apply, val_main_v47_apply, val_main_v46_apply, val_main_cst_7_apply,
    val_main_v45_apply, val_main_v44_apply, val_main_cst_6_apply, val_main_v43_apply, val_main_v42_apply,
    inputThird_eq, val_main_v54_apply, updateThird_eq, quotient_eq_logistic]
  rfl

/-- The reference's new hidden state is `hidNew` of the same. -/
theorem hid_eq (x0 x1 x2 : (⟨S200000x256, .f32⟩ : BufTy).Contents (Elt Ideal)) (x3 x4 : (⟨S768x256, .f32⟩ : BufTy).Contents (Elt Ideal))
    (x5 : (⟨S1x768, .f32⟩ : BufTy).Contents (Elt Ideal)) (x6 : (⟨S256x256, .f32⟩ : BufTy).Contents (Elt Ideal))
    (x7 : (⟨S256, .f32⟩ : BufTy).Contents (Elt Ideal)) (x8 x9 : (⟨S200000, .i32⟩ : BufTy).Contents (Elt Ideal)) :
    val_main_v58 (F := Ideal) x0 x1 x2 x3 x4 x5 x6 x7 x8 x9
      = hidNew x0 (val_main_v27 (F := Ideal) x1 x8 x9) (val_main_v31 (F := Ideal) x1 x2 x6 x7 x8 x9)
          (val_main_v32 (F := Ideal) x3) (val_main_v34 (F := Ideal) x4) x5 := by
  funext i
  rw [val_main_v58_apply, val_main_v53_apply, val_main_v52_apply, val_main_cst_9_apply, val_main_v51_apply,
    val_main_v50_apply, val_main_cst_8_apply, val_main_v49_apply, val_main_v48_apply, outputThird_eq,
    val_main_v57_apply, cell_eq, quotient_eq_logistic]
  rfl

end Cert.ReferenceIdeal.RefCell

end
-- ==== Proof.KernelValue.lean ====
/-
  What the kernel program's two results hold after the run, as functions of the arguments.

  The last boundary's contents at a result buffer are what the node-update region's write-backs leave: `hidNew` and
  `cellNew` of the region's six operand arrays. Walking the operands back through the program: the node inputs and the
  joint bias are arguments nobody writes; the two transposed weights come from the first host stretch; the summed hidden
  rows and the summed gated cells come from the stretch between the regions, which scatters-adds the gathered hidden
  rows (an input of the first region, so unchanged by it) and the first region's output array, which holds `gated` of
  the gathered rows, the transposed forget weight and the bias row. Each of these is the reference program's stage of
  the same name, so the two results are the reference's last two stages of the arguments.
-/
import proofs.«139482_j9380208575287_1_alg».proof.Proof.Gen.KernelIdeal.Frame
import proofs.«139482_j9380208575287_1_alg».proof.Proof.GateArray
import proofs.«139482_j9380208575287_1_alg».proof.Proof.NodeArray
import proofs.«139482_j9380208575287_1_alg».proof.Proof.HostStages
import proofs.«139482_j9380208575287_1_alg».proof.Proof.RefCell

set_option maxRecDepth 16384

noncomputable section

namespace Cert.KernelIdeal.Results

open Cert.KernelIdeal Cert.KernelIdeal.Gen Cert.TreeCell
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-! ## The first region's entry: the first stretch's results over the launch memory -/

theorem entry0_hidden (c : Dev nD) :
    V1 m ρ c main_v6 = Cert.ReferenceIdeal.Read.val_main_v6 (F := Ideal) (m ((c : Thread nD τ).loc main_arg1)) (m ((c : Thread nD τ).loc main_arg8)) :=
  HostStages.hidden_rows (W0 m ρ c)

theorem entry0_cell (c : Dev nD) :
    V1 m ρ c main_v13 = Cert.ReferenceIdeal.Read.val_main_v13 (F := Ideal) (m ((c : Thread nD τ).loc main_arg2)) (m ((c : Thread nD τ).loc main_arg8)) :=
  HostStages.cell_rows (W0 m ρ c)

theorem entry0_weight (c : Dev nD) :
    V1 m ρ c main_v14 = Cert.ReferenceIdeal.Read.val_main_v14 (F := Ideal) (m ((c : Thread nD τ).loc main_arg6)) :=
  HostStages.gate_weight (W0 m ρ c)

theorem entry0_bias (c : Dev nD) :
    V1 m ρ c main_v15 = Cert.ReferenceIdeal.Read.val_main_v16 (F := Ideal) (m ((c : Thread nD τ).loc main_arg7)) :=
  (HostStages.gate_bias_reshaped (W0 m ρ c)).trans (HostStages.bias_row_eq _)

/-! ## The first region's exit -/

/-- The first region's output array ends holding `gated` of its operand arrays. -/
theorem exit0_gated (c : Dev nD) :
    W2 m ρ c (Proc.devRef .tc main_v18)
      = gated (V1 m ρ c main_v6) (V1 m ρ c main_v13) (V1 m ρ c main_v14) (V1 m ρ c main_v15) :=
  (W2_arr m ρ c 4).trans (GateArray.final (V1 m ρ) c)

/-- The gathered hidden rows are an input of the first region: it leaves them as it found them. -/
theorem exit0_hidden (c : Dev nD) :
    W2 m ρ c (Proc.devRef .tc main_v6) = V1 m ρ c main_v6 :=
  (W2_arr m ρ c 0).trans (((dat0 (V1 m ρ) c).arrAt_in 0 rfl _).trans (A_eq0 (V1 m ρ) c 0))

/-- The edge destinations are untouched up to the first region's exit. -/
theorem exit0_dst (c : Dev nD) :
    W2 m ρ c (Proc.devRef .tc main_arg9) = m ((c : Thread nD τ).loc main_arg9) :=
  (W2_of_ne m ρ c main_arg9 (by decide)).trans ((HostStages.dst_kept0 (W0 m ρ c)).trans rfl)

/-! ## The second region's entry -/

theorem entry1_inputs (c : Dev nD) :
    V3 m ρ c main_arg0 = m ((c : Thread nD τ).loc main_arg0) :=
  (HostStages.inputs_kept1 (W2 m ρ c)).trans ((W2_of_ne m ρ c main_arg0 (by decide)).trans ((HostStages.inputs_kept0 (W0 m ρ c)).trans rfl))

theorem entry1_bias (c : Dev nD) :
    V3 m ρ c main_arg5 = m ((c : Thread nD τ).loc main_arg5) :=
  (HostStages.bias_kept1 (W2 m ρ c)).trans ((W2_of_ne m ρ c main_arg5 (by decide)).trans ((HostStages.bias_kept0 (W0 m ρ c)).trans rfl))

theorem entry1_input_weight (c : Dev nD) :
    V3 m ρ c main_v16 = Cert.ReferenceIdeal.Read.val_main_v32 (F := Ideal) (m ((c : Thread nD τ).loc main_arg3)) :=
  (HostStages.input_weight_kept1 (W2 m ρ c)).trans ((W2_of_ne m ρ c main_v16 (by decide)).trans (HostStages.input_weight (W0 m ρ c)))

theorem entry1_rec_weight (c : Dev nD) :
    V3 m ρ c main_v17 = Cert.ReferenceIdeal.Read.val_main_v34 (F := Ideal) (m ((c : Thread nD τ).loc main_arg4)) :=
  (HostStages.rec_weight_kept1 (W2 m ρ c)).trans ((W2_of_ne m ρ c main_v17 (by decide)).trans (HostStages.rec_weight (W0 m ρ c)))

/-- The children's hidden rows summed per node: the reference's stage of the same arguments. -/
theorem entry1_hidden_sum (c : Dev nD) :
    V3 m ρ c main_v21 = Cert.ReferenceIdeal.Read.val_main_v27 (F := Ideal) (m ((c : Thread nD τ).loc main_arg1)) (m ((c : Thread nD τ).loc main_arg8)) (m ((c : Thread nD τ).loc main_arg9)) := by
  refine (HostStages.hidden_sum (W2 m ρ c)).trans ?_
  rw [exit0_dst, exit0_hidden, entry0_hidden]
  rfl

/-- The gated cells summed per node: the reference's stage of the same arguments. -/
theorem entry1_gated_sum (c : Dev nD) :
    V3 m ρ c main_v24 = Cert.ReferenceIdeal.Read.val_main_v31 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) := by
  refine (HostStages.gated_sum (W2 m ρ c)).trans ?_
  rw [exit0_dst, exit0_gated, entry0_hidden, entry0_cell, entry0_weight, entry0_bias, ← Cert.ReferenceIdeal.RefCell.gated_eq]
  rfl

/-! ## The two results -/

/-- The new hidden state, the program's first result, is the reference's last stage of the arguments. -/
theorem hid_result (c : Dev nD) :
    W4 m ρ c (Proc.devRef .tc main_v25_0) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 6).trans ((NodeArray.final_hid (V3 m ρ) c).trans ?_)
  rw [entry1_inputs, entry1_hidden_sum, entry1_gated_sum, entry1_input_weight, entry1_rec_weight, entry1_bias]
  exact (Cert.ReferenceIdeal.RefCell.hid_eq _ _ _ _ _ _ _ _ _ _).symm

/-- The new cell state, the program's second result, is the reference's stage before the last two. -/
theorem cell_result (c : Dev nD) :
    W4 m ρ c (Proc.devRef .tc main_v25_1) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ((NodeArray.final_cell (V3 m ρ) c).trans ?_)
  rw [entry1_inputs, entry1_hidden_sum, entry1_gated_sum, entry1_input_weight, entry1_rec_weight, entry1_bias]
  exact (Cert.ReferenceIdeal.RefCell.cell_eq _ _ _ _ _ _ _ _ _ _).symm

end Cert.KernelIdeal.Results

end
-- ==== Proof.lean ====
/-
  The certificate of the ChildSum tree-LSTM cell: the kernel program against its jnp reference.

  The kernel program gathers the children's hidden and cell rows on the host, computes per edge the forget gate
  σ(h_child · U_fᵀ + b_f) times the child's cell in a first kernel region (200 blocks of 1000 edges), sums the gathered
  hidden rows and the gated cells per destination node on the host, and computes per node, in a second region (200
  blocks of 1000 nodes), iou = x · W_iouᵀ + h~ · U_iouᵀ + b_iou, the new cell σ(i) · tanh(u) + c_agg and the new hidden
  state σ(o) · tanh(c_new). The reference does the same with host operations only, its logistic function spelt
  1 / (1 + exp(−z)).

  On the extended reals the two programs compute one function. A change of float format is the identity; a matrix
  product, blocked by rows or not, into a zero accumulator or as a `dot_general`, is the plain finite sum over the
  contracted index; the quotient 1 / (1 + e^(−z)) is the logistic function by definition, ±∞ included; the gather,
  the scatter-add and the transposes are the same operations of the same operands in both programs. No law that fails
  at the infinities (distributivity, cancellation) is used, so the precondition is never opened.

  The pieces: `CellSpec` states the cell as whole-array functions; `BodyPay` reads the two kernel bodies at one element;
  `GateArray` and `NodeArray` turn "every point writes back its block of the function" into "the array ends holding the
  function"; `HostStages` reads the host operations around the regions; `KernelRun` is the program's run with the two
  results named; `KernelValue` walks the results back to the arguments; `RefCell` reads the reference's stages as the
  same functions. Here the two runs are put side by side.
-/
import proofs.«139482_j9380208575287_1_alg».proof.Defs
import proofs.«139482_j9380208575287_1_alg».proof.Proof.Gen.Kernel
import proofs.«139482_j9380208575287_1_alg».proof.Proof.Gen.Kernel.Skeleton
import proofs.«139482_j9380208575287_1_alg».proof.Proof.Gen.Kernel.Launch
import proofs.«139482_j9380208575287_1_alg».proof.Proof.Gen.Kernel.Points
import proofs.«139482_j9380208575287_1_alg».proof.Proof.Gen.Kernel.Frame
import proofs.«139482_j9380208575287_1_alg».proof.Proof.Gen.KernelIdeal
import proofs.«139482_j9380208575287_1_alg».proof.Proof.Gen.KernelIdeal.Skeleton
import proofs.«139482_j9380208575287_1_alg».proof.Proof.Gen.KernelIdeal.Launch
import proofs.«139482_j9380208575287_1_alg».proof.Proof.Gen.KernelIdeal.Points
import proofs.«139482_j9380208575287_1_alg».proof.Proof.Gen.KernelIdeal.Frame
import proofs.«139482_j9380208575287_1_alg».proof.Proof.Gen.ReferenceIdeal
import proofs.«139482_j9380208575287_1_alg».proof.Proof.Gen.Pre_finite_inputs
import proofs.«139482_j9380208575287_1_alg».proof.Proof.Gen.ReferenceIdeal.Run
import proofs.«139482_j9380208575287_1_alg».proof.Proof.Gen.ReferenceIdeal.Read
import proofs.«139482_j9380208575287_1_alg».proof.Proof.KernelRun
import proofs.«139482_j9380208575287_1_alg».proof.Proof.KernelValue
import Idealize.ShloMosaic.Adequacy
import Idealize.ShloMosaic.Init

noncomputable section

namespace Cert.Proof

open Idealize.ShloMosaic Idealize.SL.Sem

/-- The idealized kernel program's run: both results at the reference's last stages of the ARGUMENTS, the arguments
    unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25_0) = Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v25_1) = Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun r h c => ⟨(h c).1.trans (Cert.KernelIdeal.Results.hid_result m ρ c), (h c).2.1.trans (Cert.KernelIdeal.Results.cell_result m ρ c), (h c).2.2⟩)
    (Cert.KernelIdeal.Results.run_results m ρ)

/-- The three programs run, terminate, fault nowhere and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories agreeing on the arguments the two idealized programs end with equal results: each result is the
    reference's stage of the arguments — on the kernel's side by `kernel_run`, on the reference's by its generated run. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v58_eq, a0, a1, a2, a3, a4, a5, a6, a7, a8, a9]
  · obtain ⟨a0, a1, a2, a3, a4, a5, a6, a7, a8, a9⟩ := hagree c
    rw [Cert.ReferenceIdeal.Read.val_main_v56_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
